-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S256x256 : Shape := ⟨2, ![256, 256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16x256x128x128 .f32) (main_arg1 : FVec F S256x256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S16x256x128x128 : Shape := ⟨4, ![16, 256, 128, 128]⟩
abbrev S256x256 : Shape := ⟨2, ![256, 256]⟩
abbrev S16x256x16384 : Shape := ⟨3, ![16, 256, 16384]⟩
abbrev S16x16384x256 : Shape := ⟨3, ![16, 16384, 256]⟩
abbrev S262144x256 : Shape := ⟨2, ![262144, 256]⟩
abbrev S_ : Shape := ⟨0, ![]⟩
abbrev S256 : Shape := ⟨1, ![256]⟩
abbrev S1x256 : Shape := ⟨2, ![1, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 14
  | .vmem => 6
  | .smem => 0
  | _ => 0

abbrev bufTy : (tb : Table) → Fin (tcTables nBuf tb) → BufTy
  | .hbm, ⟨0, _⟩ => ⟨S16x256x128x128, .f32⟩
  | .hbm, ⟨1, _⟩ => ⟨S256x256, .f32⟩
  | .hbm, ⟨2, _⟩ => ⟨S16x256x16384, .f32⟩
  | .hbm, ⟨3, _⟩ => ⟨S16x16384x256, .f32⟩
  | .hbm, ⟨4, _⟩ => ⟨S262144x256, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S262144x256, .f32⟩
  | .hbm, ⟨11, _⟩ => ⟨S16x16384x256, .f32⟩
  | .hbm, ⟨12, _⟩ => ⟨S16x256x16384, .f32⟩
  | .hbm, ⟨13, _⟩ => ⟨S16x256x128x128, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x256x128x128_S16x256x16384 : S16x256x128x128.ShapeCasts S16x256x16384
  transposes_S16x256x16384_S16x16384x256_0_2_1 : S16x256x16384.Transposes [0, 2, 1] S16x16384x256
  shapeCasts_S16x16384x256_S262144x256 : S16x16384x256.ShapeCasts S262144x256
  transposes_S256x256_S256x256_1_0 : S256x256.Transposes [1, 0] S256x256
  reducesTo_S256x256_S256_d1 : S256x256.ReducesTo [1] S256
  h_S_ : 0 < S_.numel
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4096x256_S4096 : S4096x256.Reduces [1] S4096
  shapeCasts_S4096_S4096x1 : S4096.ShapeCasts S4096x1
  bitsLt_bf16_f32 : FTy.bits .bf16 < FTy.bits .f32
  broadcasts_S4096x1_S4096x256 : S4096x1.Broadcasts S4096x256
  broadcasts_S1x256_S4096x256 : S1x256.Broadcasts S4096x256
  shapeCasts_S262144x256_S16x16384x256 : S262144x256.ShapeCasts S16x16384x256
  transposes_S16x16384x256_S16x256x16384_0_2_1 : S16x16384x256.Transposes [0, 2, 1] S16x256x16384
  shapeCasts_S16x256x16384_S16x256x128x128 : S16x256x16384.ShapeCasts S16x256x128x128
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v2) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S256x256 : Shape := ⟨2, ![256, 256]⟩
abbrev S16x256x16384 : Shape := ⟨3, ![16, 256, 16384]⟩
abbrev S16x16384x256 : Shape := ⟨3, ![16, 16384, 256]⟩
abbrev S262144x256 : Shape := ⟨2, ![262144, 256]⟩
abbrev S_ : Shape := ⟨0, ![]⟩
abbrev S262144 : Shape := ⟨1, ![262144]⟩
abbrev S262144x1 : Shape := ⟨2, ![262144, 1]⟩
abbrev S256 : Shape := ⟨1, ![256]⟩
abbrev S1x256 : Shape := ⟨2, ![1, 256]⟩

abbrev nBuf : Space → Nat
  | .hbm => 29
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S256x256, .f32⟩
  | .hbm, ⟨2, _⟩ => ⟨S16x256x16384, .f32⟩
  | .hbm, ⟨3, _⟩ => ⟨S16x16384x256, .f32⟩
  | .hbm, ⟨4, _⟩ => ⟨S262144x256, .f32⟩
  | .hbm, ⟨5, _⟩ => ⟨S262144x256, .f32⟩
  | .hbm, ⟨6, _⟩ => ⟨S_, .f32⟩
  | .hbm, ⟨7, _⟩ => ⟨S262144, .f32⟩
  | .hbm, ⟨8, _⟩ => ⟨S262144x1, .f32⟩
  | .hbm, ⟨9, _⟩ => ⟨S256x256, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S256x256, .f32⟩
  | .hbm, ⟨17, _⟩ => ⟨S262144x256, .f32⟩
  | .hbm, ⟨18, _⟩ => ⟨S_, .f32⟩
  | .hbm, ⟨19, _⟩ => ⟨S262144x256, .f32⟩
  | .hbm, ⟨20, _⟩ => ⟨S262144x256, .f32⟩
  | .hbm, ⟨21, _⟩ => ⟨S262144x256, .f32⟩
  | .hbm, ⟨22, _⟩ => ⟨S_, .f32⟩
  | .hbm, ⟨23, _⟩ => ⟨S262144x256, .f32⟩
  | .hbm, ⟨24, _⟩ => ⟨S262144x256, .f32⟩
  | .hbm, ⟨25, _⟩ => ⟨S16x16384x256, .f32⟩
  | .hbm, ⟨26, _⟩ => ⟨S16x256x16384, .f32⟩
  | .hbm, ⟨27, _⟩ => ⟨S16x256x128x128, .f32⟩
  | .hbm, ⟨28, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  shapeCasts_S16x256x128x128_S16x256x16384 : S16x256x128x128.ShapeCasts S16x256x16384
  transposes_S16x256x16384_S16x16384x256_0_2_1 : S16x256x16384.Transposes [0, 2, 1] S16x16384x256
  shapeCasts_S16x16384x256_S262144x256 : S16x16384x256.ShapeCasts S262144x256
  reducesTo_S262144x256_S262144_d1 : S262144x256.ReducesTo [1] S262144
  h_S_ : 0 < S_.numel
  bcast_S262144_S262144x1_0 : S262144.BroadcastsInDim S262144x1 (![0] : Fin 1 → Fin S262144x1.rank)
  reducesTo_S256x256_S256_d1 : S256x256.ReducesTo [1] S256
  bcast_S256_S1x256_1 : S256.BroadcastsInDim S1x256 (![1] : Fin 1 → Fin S1x256.rank)
  bcast_S262144x1_S262144x256_0_1 : S262144x1.BroadcastsInDim S262144x256 (![0, 1] : Fin 2 → Fin S262144x256.rank)
  bcast_S1x256_S262144x256_0_1 : S1x256.BroadcastsInDim S262144x256 (![0, 1] : Fin 2 → Fin S262144x256.rank)
  transposes_S256x256_S256x256_1_0 : S256x256.Transposes [1, 0] S256x256
  bcast_S_S262144x256 : S_.BroadcastsInDim S262144x256 (![] : Fin 0 → Fin S262144x256.rank)
  shapeCasts_S262144x256_S16x16384x256 : S262144x256.ShapeCasts S16x16384x256
  transposes_S16x16384x256_S16x256x16384_0_2_1 : S16x16384x256.Transposes [0, 2, 1] S16x256x16384
  shapeCasts_S16x256x16384_S16x256x128x128 : S16x256x16384.ShapeCasts S16x256x128x128
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.BlockValue.lean ====
/-
  One grid point of the distance kernel, read at an element.

  The body loads a tile `e` of 4096 embedding rows (256 channels each), the transposed prototype table `pT`
  (channel × prototype) and the row `psq` of squared prototype norms, and stores, at row `p` and prototype `q`,

      0 − max ((Σ_c e[p,c]·e[p,c] + psq[0,q]) − 2 · Σ_c e[p,c]·pT[c,q], 0).

  At the ideal instance the two narrowing conversions in front of the matrix product are the identity, the lane
  reduction is a plain finite sum over the channel axis, and the matrix product into a zero accumulator is a plain
  finite sum over its one contracted axis.
-/
import proofs.«163224_j42339787604062_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Dist

open Idealize.ShloMosaic Idealize.ShloMosaic.ValueIdx Cert.KernelIdeal Cert.KernelIdeal.Gen

/-! ## The non-pointwise pieces, each at an element -/

/-- A column of per-row values (one per tile row, reshaped to a 4096 × 1 column and broadcast along the prototype
    axis) reads, at `(p, q)`, the value of row `p`. -/
theorem column_apply {α : Type} (r : S4096.Idx → α) (p : Fin 4096) (q : Fin 256) :
    broadcastTo S4096x256 (shapeCast S4096x1 r shapeCasts_S4096_S4096x1) broadcasts_S4096x1_S4096x256 (ix2 p q) = r (ix1 p) := by
  refine (broadcastTo_apply _ broadcasts_S4096x1_S4096x256 (ix2 p q) (ix2 p (0 : Fin 1)) (fun a => ?_)).trans ?_
  · match a with
    | ⟨0, _⟩ => show p.val = if (4096 : Nat) = 1 then 0 else p.val; rw [if_neg (by decide)]
    | ⟨1, _⟩ => show 0 = if (1 : Nat) = 1 then 0 else q.val; rw [if_pos rfl]
  · refine shapeCast_apply r shapeCasts_S4096_S4096x1 (ix2 p (0 : Fin 1)) (ix1 p) ?_
    rw [Shape.rowMajor_val_one, Shape.rowMajor_val_two]
    show p.val = p.val * 1 + 0
    omega

/-- The lane sum of a tile over its channel axis, at row `p`, is the finite sum over the 256 channels. -/
theorem rowSum_apply (v : FVec Ideal S4096x256 .f32) (hφ : FKind.Formats FTy.f32)
    (hacc : (0x00000000#32 : BitVec 32) = FKind.add.neutral FTy.f32 hφ) (p : Fin 4096) :
    multiReduction .add [1] S4096 v 0x00000000#32 reduces_S4096x256_S4096 hφ hacc (ix1 p) = ∑ c : Fin 256, v (ix2 p c) := by
  refine (Ideal.multiReduction_add_single v 0x00000000#32 reduces_S4096x256_S4096 hφ hacc (ix1 p)).trans ?_
  refine Finset.sum_congr rfl fun k _ => ?_
  exact congrArg v (funext fun a => Fin.ext (by match a with | ⟨0, _⟩ => rfl | ⟨1, _⟩ => rfl))

/-! The matrix product's operand indices: the left operand is read at (row, contracted), the right at (contracted, column). -/

theorem lhs_axis0 (i : S4096x256.Idx) (k : dot_S4096x256_S256x256_S4096x256_1_0_0_1_n_n.contr.Idx) :
    (dot_S4096x256_S256x256_S4096x256_1_0_0_1_n_n.lhsIdx i k 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_axis1 (i : S4096x256.Idx) (k : dot_S4096x256_S256x256_S4096x256_1_0_0_1_n_n.contr.Idx) :
    (dot_S4096x256_S256x256_S4096x256_1_0_0_1_n_n.lhsIdx i k 1).val = (k ⟨0, by decide⟩).val :=
  dot_S4096x256_S256x256_S4096x256_1_0_0_1_n_n.lhsIdx_val_of_single rfl i k
theorem rhs_axis0 (i : S4096x256.Idx) (k : dot_S4096x256_S256x256_S4096x256_1_0_0_1_n_n.contr.Idx) :
    (dot_S4096x256_S256x256_S4096x256_1_0_0_1_n_n.rhsIdx i k 0).val = (k ⟨0, by decide⟩).val :=
  dot_S4096x256_S256x256_S4096x256_1_0_0_1_n_n.rhsIdx_val_of_single rfl i k
theorem rhs_axis1 (i : S4096x256.Idx) (k : dot_S4096x256_S256x256_S4096x256_1_0_0_1_n_n.contr.Idx) :
    (dot_S4096x256_S256x256_S4096x256_1_0_0_1_n_n.rhsIdx i k 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The tile's matrix product with the transposed table, into a zero accumulator, at `(p, q)`: the sum over the
    channels of tile row `p` against table column `q`. -/
theorem cross_apply (a : FVec Ideal S4096x256 .bf16) (b : FVec Ideal S256x256 .bf16) (p : Fin 4096) (q : Fin 256) :
    matmul dot_S4096x256_S256x256_S4096x256_1_0_0_1_n_n none a b (constant S4096x256 .f32 0x00000000#32) (ix2 p q)
      = ∑ c : Fin 256, a (ix2 p c) * b (ix2 c q) := by
  refine (Ideal.matmul_constant_zero_apply dot_S4096x256_S256x256_S4096x256_1_0_0_1_n_n none a b (ix2 p q)).trans ?_
  rw [← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 p q) ((ValueIdx.contrEquiv1 dot_S4096x256_S256x256_S4096x256_1_0_0_1_n_n 256 rfl rfl).symm k) = ix2 p k := funext fun ax => Fin.ext (by
    match ax with
    | ⟨0, _⟩ => exact lhs_axis0 _ _
    | ⟨1, _⟩ => exact (lhs_axis1 _ _).trans hk)
  have er : dot_S4096x256_S256x256_S4096x256_1_0_0_1_n_n.rhsIdx (ix2 p q) ((ValueIdx.contrEquiv1 dot_S4096x256_S256x256_S4096x256_1_0_0_1_n_n 256 rfl rfl).symm k) = ix2 k q := funext fun ax => Fin.ext (by
    match ax with
    | ⟨0, _⟩ => exact (rhs_axis0 _ _).trans hk
    | ⟨1, _⟩ => exact rhs_axis1 _ _)
  rw [el, er]

/-! ## The stored value at an element -/

/-- The negated clamped squared distance of row `p` of an `N`-row table `e` to prototype `q`, from the transposed
    prototype table and the row of squared prototype norms. A grid point stores it with `e` its 4096-row tile; the
    whole output array holds it with `e` the full 262144-row table. -/
def pointValue {N : Nat} (e : (⟨2, ![N, 256]⟩ : Shape).Idx → EReal) (pT : S256x256.Idx → EReal) (psq : S1x256.Idx → EReal) (p : Fin N) (q : Fin 256) : EReal :=
  Ideal.ofBits .f32 0x00000000#32
    - max (((∑ c : Fin 256, e (ix2 p c) * e (ix2 p c)) + psq (ix2 (0 : Fin 1) q))
            - Ideal.ofBits .f32 0x40000000#32 * ∑ c : Fin 256, e (ix2 p c) * pT (ix2 c q))
          (Ideal.ofBits .f32 0x00000000#32)

/-- The body's stored vector, read at `(p, q)`, is `pointValue` of the loaded blocks. -/
theorem payload_apply (x0 : Vec Ideal S4096x256 .f32) (x1 : Vec Ideal S256x256 .f32) (x2 : Vec Ideal S1x256 .f32)
    (p : Fin 4096) (q : Fin 256) :
    k0_pay1 (F := Ideal) x0 x1 x2 (ix2 p q) = pointValue (N := 4096) x0 x1 x2 p q := by
  unfold k0_pay1 pointValue
  simp only [shapeCast_self]
  refine (subf_apply _ _ _).trans ?_
  refine congrArg₂ (fun a b : EReal => a - b) rfl ?_
  refine (maximumf_apply _ _ _).trans ?_
  refine congrArg₂ (fun a b : EReal => max a b) ?_ rfl
  refine (subf_apply _ _ _).trans ?_
  refine congrArg₂ (fun a b : EReal => a - b) ?_ ?_
  · refine (addf_apply _ _ _).trans ?_
    refine congrArg₂ (fun a b : EReal => a + b) ?_ ?_
    · refine (column_apply _ p q).trans ?_
      exact rowSum_apply (mulf x0 x0) _ _ p
    · exact broadcastTo_1b_ab_apply x2 _ p q
  · refine (mulf_apply _ _ _).trans ?_
    refine congrArg₂ (fun a b : EReal => a * b) rfl ?_
    exact cross_apply (truncf .bf16 x0 bitsLt_bf16_f32) (truncf .bf16 x1 bitsLt_bf16_f32) p q

end Cert.KernelIdeal.Dist

end
-- ==== Proof.ArrayValue.lean ====
/-
  From the grid points' blocks to the whole output array of the distance kernel.

  The grid has 64 points; point `t` reads rows `4096·t … 4096·t + 4095` of the row table `E` (262144 rows of 256
  channels), the whole transposed prototype table and the whole row of squared prototype norms, and writes rows
  `4096·t … 4096·t + 4095` of the output. The output blocks tile the array, so after the last point the array holds,
  at row `n` and prototype `k`,

      0 − max ((Σ_c E[n,c]·E[n,c] + psq[0,k]) − 2 · Σ_c E[n,c]·pT[c,k], 0).
-/
import proofs.«163224_j42339787604062_1_alg».proof.Proof.Gen.KernelIdeal.Frame
import proofs.«163224_j42339787604062_1_alg».proof.Proof.BlockValue
import Idealize.ShloMosaic.Lib.Pipeline.Value

set_option maxRecDepth 16384

noncomputable section

open scoped BigOperators

namespace Cert.KernelIdeal.Dist

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- The zero offset of every whole-block access. -/
theorem zeroOffset : (![0, 0] : Fin 2 → Nat) = fun _ => 0 := funext fun a => by fin_cases a <;> rfl

/-- The whole output array as one function of the row table, the transposed prototype table and the squared norms. -/
def arrayValue (E : S262144x256.Idx → EReal) (pT : S256x256.Idx → EReal) (psq : S1x256.Idx → EReal) : S262144x256.Idx → EReal :=
  fun i => pointValue (N := 262144) E pT psq ⟨(i 0).val, idx2_lt0 i⟩ ⟨(i 1).val, idx2_lt1 i⟩

/-- One element of one point's stored block is the array function at the element's place in the array, when the loaded
    row tile is rows `4096·b …` of `E` and the two small operands are loaded whole. -/
theorem point_eq (E : S262144x256.Idx → EReal) (pT : S256x256.Idx → EReal) (psq : S1x256.Idx → EReal)
    (x0 : Vec Ideal S4096x256 .f32) (x1 : Vec Ideal S256x256 .f32) (x2 : Vec Ideal S1x256 .f32) (b : Nat)
    (h0 : ∀ (p : Fin 4096) (c : Fin 256) (hp : b * 4096 + p.val < 262144), x0 (ix2 p c) = E (ix2 (⟨b * 4096 + p.val, hp⟩ : Fin 262144) c))
    (h1 : x1 = pT) (h2 : x2 = psq)
    (j : S4096x256.Idx) (i : S262144x256.Idx) (hi0 : (i 0).val = b * 4096 + (j 0).val) (hi1 : (i 1).val = (j 1).val) :
    k0_pay1 (F := Ideal) x0 x1 x2 j = arrayValue E pT psq i := by
  obtain ⟨p, q, rfl⟩ : ∃ (p : Fin 4096) (q : Fin 256), j = ix2 p q := ⟨j 0, j 1, eq_ix2 j⟩
  have hi0' : (i 0).val = b * 4096 + p.val := hi0
  have hi1' : (i 1).val = q.val := hi1
  have hp : b * 4096 + p.val < 262144 := by have := idx2_lt0 i; omega
  have hn : (⟨(i 0).val, idx2_lt0 i⟩ : Fin 262144) = ⟨b * 4096 + p.val, hp⟩ := Fin.ext hi0'
  have hq : (⟨(i 1).val, idx2_lt1 i⟩ : Fin 256) = q := Fin.ext hi1'
  have h0' : ∀ c : Fin 256, x0 (ix2 p c) = E (ix2 (⟨b * 4096 + p.val, hp⟩ : Fin 262144) c) := fun c => h0 p c hp
  rw [payload_apply]
  subst h1 h2
  unfold arrayValue
  rw [hn, hq]
  unfold pointValue
  simp only [h0']

/-- The printed index maps, decided over the grid: the row tile and the output block move with the point, the two small
    operands stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the array function of the three operand arrays as the region finds them. -/
theorem flushed_eq (c : Dev nD) (t : Fin cfg0.N) :
    (dats m 0 c).flushed 3 t = ((cfg0.win 3).blk t).view.read (Elt Ideal) (arrayValue (V m c main_v2) (V m c main_v3) (V m c main_v6)) := by
  show (cfg0.win 3).cut (grid0.coords t) ((dats m 0 c).after 3 t) = _
  rw [after0_3]
  unfold out0_3
  rw [View.canon_unit_zero zeroOffset]
  simp only [View.ld_unit_zero (S := S4096x256) zeroOffset, View.ld_unit_zero (S := S256x256) zeroOffset, View.ld_unit_zero (S := S1x256) zeroOffset]
  obtain ⟨e0, e1, e2, e3, e4, e5, e6, e7⟩ := idx_facts t
  funext j
  show k0_pay1 (F := Ideal) (iblk m c 0 t) (iblk m c 1 t) (iblk m c 2 t) j
    = arrayValue (V m c main_v2) (V m c main_v3) (V m c main_v6) (((cfg0.win 3).blk t).view.emb j)
  refine point_eq (V m c main_v2) (V m c main_v3) (V m c main_v6) (iblk m c 0 t) (iblk m c 1 t) (iblk m c 2 t) t.val ?_ ?_ ?_ j _ ?_ ?_
  · intro p cc hp
    show V m c main_v2 (((cfg0.win 0).blk t).view.emb (ix2 p cc)) = V m c main_v2 (ix2 (⟨t.val * 4096 + p.val, hp⟩ : Fin 262144) cc)
    have h : ((cfg0.win 0).blk t).view.emb (ix2 p cc) = ix2 (⟨t.val * 4096 + p.val, hp⟩ : Fin 262144) cc := by
      funext a; apply Fin.ext
      match a with
      | ⟨0, _⟩ => show win0_0.index t (0 : Fin 2) * 4096 + 1 * p.val = t.val * 4096 + p.val; omega
      | ⟨1, _⟩ => show win0_0.index t (1 : Fin 2) * 256 + 1 * cc.val = cc.val; omega
    rw [h]
  · funext y
    show V m c main_v3 (((cfg0.win 1).blk t).view.emb y) = V m c main_v3 y
    have h : ((cfg0.win 1).blk t).view.emb y = y := by
      funext a; apply Fin.ext
      match a with
      | ⟨0, _⟩ => show win0_1.index t (0 : Fin 2) * 256 + 1 * (y 0).val = (y 0).val; omega
      | ⟨1, _⟩ => show win0_1.index t (1 : Fin 2) * 256 + 1 * (y 1).val = (y 1).val; omega
    rw [h]
  · funext y
    show V m c main_v6 (((cfg0.win 2).blk t).view.emb y) = V m c main_v6 y
    have h : ((cfg0.win 2).blk t).view.emb y = y := by
      funext a; apply Fin.ext
      match a with
      | ⟨0, _⟩ => show win0_2.index t (0 : Fin 2) * 1 + 1 * (y 0).val = (y 0).val; omega
      | ⟨1, _⟩ => show win0_2.index t (1 : Fin 2) * 256 + 1 * (y 1).val = (y 1).val; omega
    rw [h]
  · show win0_3.index t (0 : Fin 2) * 4096 + 1 * (j 0).val = t.val * 4096 + (j 0).val
    omega
  · show win0_3.index t (1 : Fin 2) * 256 + 1 * (j 1).val = (j 1).val
    omega

/-- An index of the output array is in point `t`'s block iff each coordinate is in the block's range on its axis. -/
theorem mem_blk (t : Fin cfg0.N) (i : S262144x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v7).slice (win0_3.rect t)).set ↔ _
  rw [View.set_slice_whole, Rect.mem_set_unit]
  exact Iff.rfl

/-- Every index of the output array is in the block of the point its row falls in: row `n` belongs to point `n / 4096`. -/
theorem covered (i : S262144x256.Idx) : ∃ t : Fin cfg0.N, (cfg0.win 3).flush t = true ∧ i ∈ ((cfg0.win 3).blk t).view.set := by
  have hi0 : (i 0).val < 262144 := (i 0).isLt
  have hi1 : (i 1).val < 256 := (i 1).isLt
  have hlt : (i 0).val / 4096 < cfg0.N := by
    show (i 0).val / 4096 < grid0.N
    rw [N_0]; omega
  obtain ⟨e0, e1, e2, e3, e4, e5, e6, e7⟩ := idx_facts ⟨(i 0).val / 4096, hlt⟩
  have e6' : win0_3.index ⟨(i 0).val / 4096, hlt⟩ (0 : Fin 2) = (i 0).val / 4096 := e6
  refine ⟨⟨(i 0).val / 4096, hlt⟩, flush0_3 _, ?_⟩
  rw [mem_blk]
  intro a
  match a with
  | ⟨0, _⟩ =>
    show win0_3.index ⟨(i 0).val / 4096, hlt⟩ (0 : Fin 2) * 4096 ≤ (i 0).val ∧ (i 0).val < win0_3.index ⟨(i 0).val / 4096, hlt⟩ (0 : Fin 2) * 4096 + 4096
    omega
  | ⟨1, _⟩ =>
    show win0_3.index ⟨(i 0).val / 4096, hlt⟩ (1 : Fin 2) * 256 ≤ (i 1).val ∧ (i 1).val < win0_3.index ⟨(i 0).val / 4096, hlt⟩ (1 : Fin 2) * 256 + 256
    omega

/-- The output array after the last point is the array function of the three operand arrays as the region finds them. -/
theorem final (c : Dev nD) :
    (dats m 0 c).arrAt 3 cfg0.N = arrayValue (V m c main_v2) (V m c main_v3) (V m c main_v6) :=
  (dats m 0 c).arrAt_eq_of_cover 3 _ (fun t _ => flushed_eq m c t) covered

end Cert.KernelIdeal.Dist

end
-- ==== Proof.HostValue.lean ====
/-
  The distance kernel's whole program, read as a value.

  Before the region the host lays the embeddings out as a row table (batch and pixel on the rows, channel on the
  columns), transposes the prototype table, and sums each prototype's squares; after the region it undoes the row
  layout on the kernel's output. So the program's result is

      backLayout (arrayValue (rowTable embeddings) (protoT prototypes) (protoSq prototypes)).
-/
import proofs.«163224_j42339787604062_1_alg».proof.Proof.Gen.KernelIdeal.Frame
import proofs.«163224_j42339787604062_1_alg».proof.Proof.ArrayValue
import Idealize.ShloMosaic.Lib.StableHlo.Run
import Idealize.ShloMosaic.Lib.Pipeline.FrameSuffix

set_option maxRecDepth 16384

noncomputable section

namespace Cert.KernelIdeal.Dist

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

/-! ## The host operations as functions of the arguments -/

/-- The embeddings as a table of rows: row `b·16384 + h·128 + w` holds the 256 channels of pixel `(h, w)` of image `b`. -/
def rowTable (x : Vec Ideal S16x256x128x128 .f32) : Vec Ideal S262144x256 .f32 :=
  shapeCast S262144x256 (transpose S16x16384x256 [0, 2, 1] (shapeCast S16x256x16384 x shapeCasts_S16x256x128x128_S16x256x16384)
    transposes_S16x256x16384_S16x16384x256_0_2_1) shapeCasts_S16x16384x256_S262144x256

/-- The prototype table transposed: channel on the rows, prototype on the columns. -/
def protoT (w : Vec Ideal S256x256 .f32) : Vec Ideal S256x256 .f32 :=
  transpose S256x256 [1, 0] w transposes_S256x256_S256x256_1_0

/-- Each prototype's sum of squares, as one row. -/
def protoSq (w : Vec Ideal S256x256 .f32) : Vec Ideal S1x256 .f32 :=
  shapeCast S1x256 (Host.reduceAdd (F := Ideal) (mulf (F := Ideal) w w) (constant (F := Ideal) S_ .f32 0x00000000#32) reducesTo_S256x256_S256_d1 h_S_) shapeCasts_S256_S1x256

/-- The row layout undone: the value at row `b·16384 + h·128 + w`, column `k` goes to `(b, k, h, w)`. -/
def backLayout (X : Vec Ideal S262144x256 .f32) : Vec Ideal S16x256x128x128 .f32 :=
  shapeCast S16x256x128x128 (transpose S16x256x16384 [0, 2, 1] (shapeCast S16x16384x256 X shapeCasts_S262144x256_S16x16384x256)
    transposes_S16x16384x256_S16x256x16384_0_2_1) shapeCasts_S16x256x16384_S16x256x128x128

/-- The program's result as a function of its two arguments. -/
def result (x : Vec Ideal S16x256x128x128 .f32) (w : Vec Ideal S256x256 .f32) : Vec Ideal S16x256x128x128 .f32 :=
  backLayout (arrayValue (rowTable x) (protoT w) (protoSq w))

variable (m : (ℓ : Loc nD τ sig) → Buf (Elt Ideal) ℓ) (ρ : Dev nD → PrngReg)

/-! ## The operand arrays as the region finds them -/

theorem rows_at_entry (c : Dev nD) :
    (V m c main_v2 : Vec Ideal S262144x256 .f32) = rowTable (m ((c : Thread nD τ).loc main_arg0)) := by
  unfold rowTable
  show StableHlo.after hostOps0 (fun b => m (c, b)) (Proc.devRef .tc main_v2) = _
  after_results <;> rfl

theorem protoT_at_entry (c : Dev nD) :
    (V m c main_v3 : Vec Ideal S256x256 .f32) = protoT (m ((c : Thread nD τ).loc main_arg1)) := by
  unfold protoT
  show StableHlo.after hostOps0 (fun b => m (c, b)) (Proc.devRef .tc main_v3) = _
  after_results <;> rfl

theorem protoSq_at_entry (c : Dev nD) :
    (V m c main_v6 : Vec Ideal S1x256 .f32) = protoSq (m ((c : Thread nD τ).loc main_arg1)) := by
  unfold protoSq
  show StableHlo.after hostOps0 (fun b => m (c, b)) (Proc.devRef .tc main_v6) = _
  after_results <;> rfl

/-! ## The operations after the region -/

/-- The program's result buffer after the three layout operations that follow the region. -/
theorem result_after_tail (c : Dev nD) :
    (Pipeline.afterTail₀ cfgs (dats m) 0 (V0 m) [hostOps1] c main_v10 : Vec Ideal S16x256x128x128 .f32)
      = result (m ((c : Thread nD τ).loc main_arg0)) (m ((c : Thread nD τ).loc main_arg1)) := by
  unfold result backLayout
  rw [← rows_at_entry m c, ← protoT_at_entry m c, ← protoSq_at_entry m c, ← final m c]
  unfold Pipeline.afterTail₀
  show StableHlo.after hostOps1 _ (Proc.devRef .tc main_v10) = _
  after_results
  rw [Pipeline.withArrays_arr spec0 launch0.win.arr_inj c _ _ 3]
  rfl

/-! ## The run -/

/-- Every weakly fair execution of the kernel program terminates with the result buffer at `result` of the arguments and
    the arguments unchanged. -/
theorem run : θ_run defs (onTc (τ := τ) (main (F := Ideal))) ⟨m, fun _ => 0, ρ⟩ fun r => ∀ c : Dev nD,
      r.2.mem ((c.tc : Thread nD τ).loc main_v10) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (result_after_tail m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Dist

end
-- ==== Proof.Bridge.lean ====
/-
  The kernel program's value is the reference's.

  Both programs lay the embeddings out as the same row table `E` and undo that layout on the way out; in between, at
  row `n` and prototype `k`, both form

      d = (Σ_c E[n,c]·E[n,c] + Σ_c P[k,c]·P[k,c]) − 2 · Σ_c E[n,c]·P[k,c]      and      max (d, 0).

  The kernel takes the squared prototype norms from a host-side sum reshaped to a row, and the cross term from its
  matrix product against the transposed table; the reference takes both from host operations of the same shape. The
  one difference left is the sign: the kernel stores `0 − max (d, 0)` before the layout is undone, the reference negates
  after it. Undoing the layout only moves elements, so it commutes with a map applied to each element, and
  `0 − y = −y` on the extended reals.
-/
import proofs.«163224_j42339787604062_1_alg».proof.Proof.HostValue
import proofs.«163224_j42339787604062_1_alg».proof.Proof.Gen.ReferenceIdeal.Read
import Idealize.ShloMosaic.Lib.ValueLayout

noncomputable section

open scoped BigOperators

namespace Cert.DistBridge

open Idealize.ShloMosaic Idealize.ShloMosaic.ValueIdx
open Cert.KernelIdeal.Dist
open Cert.ReferenceIdeal Cert.ReferenceIdeal.Read

variable (x0 : Vec Ideal S16x256x128x128 .f32) (x1 : Vec Ideal S256x256 .f32)

/-! ## The two programs' host operations are the same functions -/

theorem rowTable_eq : rowTable x0 = val_main_v2 (F := Ideal) x0 := rfl
theorem protoT_eq : protoT x1 = val_main_v12 (F := Ideal) x1 := rfl
theorem protoSq_eq : protoSq x1 = shapeCast S1x256 (val_main_v7 (F := Ideal) x1) Cert.KernelIdeal.Gen.shapeCasts_S256_S1x256 := rfl

/-- Undoing the row layout on the reference's clamped distances is the reference's last array before its negation. -/
theorem backLayout_clamped : backLayout (val_main_v18 (F := Ideal) x0 x1) = val_main_v21 (F := Ideal) x0 x1 := rfl

/-- Undoing the row layout commutes with subtracting every element from a constant. -/
theorem backLayout_sub (M : Vec Ideal S262144x256 .f32) (z : EReal) :
    backLayout (fun j => z - M j) = fun i => z - backLayout M i := rfl

/-! ## The reference's three sums at row `n`, prototype `k` -/

/-- The broadcast squared row norm is the sum of squares over the channels of row `n`. -/
theorem rowNorm_apply (n : Fin 262144) (k : Fin 256) :
    val_main_v9 (F := Ideal) x0 (ix2 n k) = ∑ c : Fin 256, val_main_v2 (F := Ideal) x0 (ix2 n c) * val_main_v2 (F := Ideal) x0 (ix2 n c) := by
  rw [val_main_v9_apply, val_main_v5_apply, val_main_v4_apply, val_main_cst_apply]
  show Ideal.ofBits .f32 0x00000000#32 + _ = _
  rw [Ideal.ofBits_zero_f32, zero_add]
  refine Finset.sum_congr rfl fun c _ => ?_
  rw [val_main_v3_apply]
  have h : idx_main_v4 (idx_main_v5 (idx_main_v9 (ix2 n k))) c = ix2 n c :=
    funext fun a => Fin.ext (by match a with | ⟨0, _⟩ => rfl | ⟨1, _⟩ => rfl)
  rw [h]
  rfl

/-- The broadcast squared prototype norm is the kernel-side row of norms at `(0, k)`. -/
theorem protoNorm_apply (n : Fin 262144) (k : Fin 256) :
    val_main_v10 (F := Ideal) x1 (ix2 n k)
      = shapeCast S1x256 (val_main_v7 (F := Ideal) x1) Cert.KernelIdeal.Gen.shapeCasts_S256_S1x256 (ix2 (0 : Fin 1) k) := by
  rw [val_main_v10_apply, val_main_v8_apply]
  have h : idx_main_v8 (idx_main_v10 (ix2 n k)) = ix1 k :=
    funext fun a => Fin.ext (by match a with | ⟨0, _⟩ => rfl)
  rw [h]
  exact (shapeCast_a_1a_apply (val_main_v7 (F := Ideal) x1) Cert.KernelIdeal.Gen.shapeCasts_S256_S1x256 (0 : Fin 1) k).symm

/-- The host matrix product at `(n, k)` is the sum over the channels of row `n` against column `k` of the transposed table. -/
theorem cross_apply (n : Fin 262144) (k : Fin 256) :
    val_main_v13 (F := Ideal) x0 x1 (ix2 n k) = ∑ c : Fin 256, val_main_v2 (F := Ideal) x0 (ix2 n c) * val_main_v12 (F := Ideal) x1 (ix2 c k) := by
  rw [val_main_v13_apply]
  refine Finset.sum_congr rfl fun c _ => ?_
  have hl : lidx_main_v13 (ix2 n k) c = ix2 n c :=
    funext fun a => Fin.ext (by match a with | ⟨0, _⟩ => rfl | ⟨1, _⟩ => rfl)
  have hr : ridx_main_v13 (ix2 n k) c = ix2 c k :=
    funext fun a => Fin.ext (by match a with | ⟨0, _⟩ => rfl | ⟨1, _⟩ => rfl)
  rw [hl, hr]

/-! ## The middle array, and the result -/

/-- The kernel's output array is the reference's clamped distances subtracted from zero, element by element. -/
theorem arrayValue_eq (j : S262144x256.Idx) :
    arrayValue (rowTable x0) (protoT x1) (protoSq x1) j
      = Ideal.ofBits .f32 0x00000000#32 - val_main_v18 (F := Ideal) x0 x1 j := by
  obtain ⟨n, k, rfl⟩ : ∃ (n : Fin 262144) (k : Fin 256), j = ix2 n k := ⟨j 0, j 1, eq_ix2 j⟩
  rw [rowTable_eq, protoT_eq, protoSq_eq]
  show pointValue (N := 262144) (val_main_v2 (F := Ideal) x0) (val_main_v12 (F := Ideal) x1)
      (shapeCast S1x256 (val_main_v7 (F := Ideal) x1) Cert.KernelIdeal.Gen.shapeCasts_S256_S1x256) n k = _
  unfold pointValue
  refine congrArg (fun a : EReal => Ideal.ofBits .f32 0x00000000#32 - a) ?_
  rw [val_main_v18_apply, val_main_v17_apply, val_main_cst_2_apply, val_main_v16_apply, val_main_v11_apply,
    val_main_v15_apply, val_main_v14_apply, val_main_cst_1_apply, rowNorm_apply, protoNorm_apply, cross_apply]
  rfl

/-- The kernel program's result is the reference's last stage, as arrays. -/
theorem result_eq : result x0 x1 = val_main_v22 (F := Ideal) x0 x1 := by
  unfold result
  have h : arrayValue (rowTable x0) (protoT x1) (protoSq x1)
      = fun j => Ideal.ofBits .f32 0x00000000#32 - val_main_v18 (F := Ideal) x0 x1 j := funext (arrayValue_eq x0 x1)
  rw [h, backLayout_sub, backLayout_clamped]
  funext i
  rw [val_main_v22_apply, Ideal.ofBits_zero_f32, Ideal.hostNegf_def, Ideal.negf_def, zero_sub]

end Cert.DistBridge

end
-- ==== Proof.lean ====
/- Negated clamped squared distances from every pixel's embedding to every prototype: the kernel's proof of its claim.

   The kernel program lays the embeddings out as a table of 262144 rows (image and pixel) by 256 channels, runs a
   64-point grid over 4096-row tiles — each point forming, for its rows and all 256 prototypes,
   0 − max ((‖e‖² + ‖p‖²) − 2·e·p, 0) with the cross term a matrix product —, and undoes the row layout. The reference
   forms the same quantity with host operations and negates last. At the ideal instance the two results are equal
   element by element: the sums are the same finite sums, the narrowing conversions in front of the matrix product
   are the identity, and 0 − y = −y.

   The three frames: the kernel's at both instances is its generated frame; the reference's is its run with the
   result dropped. The idealization rewrote nothing, so its conjunct is `True`. -/
import proofs.«163224_j42339787604062_1_alg».proof.Defs
import proofs.«163224_j42339787604062_1_alg».proof.Proof.Gen.Kernel
import proofs.«163224_j42339787604062_1_alg».proof.Proof.Gen.Kernel.Skeleton
import proofs.«163224_j42339787604062_1_alg».proof.Proof.Gen.Kernel.Launch
import proofs.«163224_j42339787604062_1_alg».proof.Proof.Gen.Kernel.Points
import proofs.«163224_j42339787604062_1_alg».proof.Proof.Gen.Kernel.Frame
import proofs.«163224_j42339787604062_1_alg».proof.Proof.Gen.KernelIdeal
import proofs.«163224_j42339787604062_1_alg».proof.Proof.Gen.KernelIdeal.Skeleton
import proofs.«163224_j42339787604062_1_alg».proof.Proof.Gen.KernelIdeal.Launch
import proofs.«163224_j42339787604062_1_alg».proof.Proof.Gen.KernelIdeal.Points
import proofs.«163224_j42339787604062_1_alg».proof.Proof.Gen.KernelIdeal.Frame
import proofs.«163224_j42339787604062_1_alg».proof.Proof.Gen.ReferenceIdeal
import proofs.«163224_j42339787604062_1_alg».proof.Proof.Gen.Pre_finite_inputs
import proofs.«163224_j42339787604062_1_alg».proof.Proof.Gen.ReferenceIdeal.Run
import proofs.«163224_j42339787604062_1_alg».proof.Proof.Gen.ReferenceIdeal.Read
import proofs.«163224_j42339787604062_1_alg».proof.Proof.HostValue
import proofs.«163224_j42339787604062_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the two arguments, both programs end with the same array: the kernel program's result
    as a function of the arguments is the reference's last stage. -/
theorem algebraic : Cert.algebraic_KernelIdeal_ReferenceIdeal := by
  intro m ρ m' ρ' _ hagree
  refine ⟨_, Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v22_eq]
  exact (Cert.DistBridge.result_eq _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
